-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S8x4096 .f32) (main_arg4 : FVec F S4096x8 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩
abbrev S1x4096 : Shape := ⟨2, ![1, 4096]⟩
abbrev S16384x4096 : Shape := ⟨2, ![16384, 4096]⟩
abbrev S1024x256 : Shape := ⟨2, ![1024, 256]⟩
abbrev S4096x256 : Shape := ⟨2, ![4096, 256]⟩
abbrev S1024x4096 : Shape := ⟨2, ![1024, 4096]⟩

abbrev nBuf : Space → Nat
  | .hbm => 17
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S4096x8, .f32⟩
  | .hbm, ⟨6, _⟩ => ⟨S8x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S8x2048x4096, .f32⟩
  | .local _ .vmem, ⟨0, _⟩ => ⟨S1024x256, .f32⟩
  | .local _ .vmem, ⟨1, _⟩ => ⟨S1024x256, .f32⟩
  | .local _ .vmem, ⟨2, _⟩ => ⟨S4096x256, .bf16⟩
  | .local _ .vmem, ⟨3, _⟩ => ⟨S4096x256, .bf16⟩
  | .local _ .vmem, ⟨4, _⟩ => ⟨S1x4096, .f32⟩
  | .local _ .vmem, ⟨5, _⟩ => ⟨S1024x4096, .f32⟩
  | .local _ .vmem, ⟨6, _⟩ => ⟨S1024x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096_S4096x8_1_0 : S8x4096.Transposes [1, 0] S4096x8
  transposes_S4096x8_S8x4096_1_0 : S4096x8.Transposes [1, 0] S8x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  shapeCasts_S8x2048x4096_S16384x4096 : S8x2048x4096.ShapeCasts S16384x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S1024x4096_S1024x4096 : S1024x4096.ShapeCasts S1024x4096
  shapeCasts_S16384x4096_S8x2048x4096 : S16384x4096.ShapeCasts S8x2048x4096
  dot_S4096x8_S8x4096_S4096x4096_1_0_0_1_n_n_wf : DotDims.WF S4096x8 S8x4096 S4096x4096 [1] [0] [0] [1] [] []
  dot_S1024x256_S4096x256_S1024x4096_1_1_0_0_n_n_wf : DotDims.WF S1024x256 S4096x256 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x4096.size a
  hwx0_0 : ∀ i : grid0.Coords, EltTy.bits .f32 = 32 ∨ (Rect.block (s := S16384x4096) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S16384x4096.size a
  hwx0_3 : ∀ i : grid0.Coords, EltTy.bits .f32 = 32 ∨ (Rect.block (s := S16384x4096) S1024x4096.size (cc0_transform_3 i) (hinb0_3 i)).WholeWords (EltTy.packing .f32)

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S8x2048x8 : Shape := ⟨3, ![8, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S8x2048x8, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S4096x8_S8x2048x8_2_0_01_1_n_n_wf : DotDims.WF S8x2048x4096 S4096x8 S8x2048x8 [2] [0] [0, 1] [1] [] []
  dot_S8x2048x8_S8x4096_S8x2048x4096_2_0_01_1_n_n_wf : DotDims.WF S8x2048x8 S8x4096 S8x2048x4096 [2] [0] [0, 1] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S4096x8_S8x2048x8_2_0_01_1_n_n : DotDims S8x2048x4096 S4096x8 S8x2048x8 where
  lhsContracting := [2]
  rhsContracting := [0]
  lhsNonContracting := [0, 1]
  rhsNonContracting := [1]
  lhsBatch := []
  rhsBatch := []
  wf := dot_S8x2048x4096_S4096x8_S8x2048x8_2_0_01_1_n_n_wf
def dot_S8x2048x8_S8x4096_S8x2048x4096_2_0_01_1_n_n : DotDims S8x2048x8 S8x4096 S8x2048x4096 where
  lhsContracting := [2]
  rhsContracting := [0]
  lhsNonContracting := [0, 1]
  rhsNonContracting := [1]
  lhsBatch := []
  rhsBatch := []
  wf := dot_S8x2048x8_S8x4096_S8x2048x4096_2_0_01_1_n_n_wf

class Facts : Prop extends Facts₀ where

variable [Facts]
-- ==== Proof.Pieces.lean ====
/-
  What one visit of the kernel body leaves in the output block's staging buffer, as a value. At the first
  contraction step of a row tile the body stores the bias block and then the update over it; at every later step
  it stores the update over what the step before left. Each store covers the whole block, so the buffer holds the
  last store's value: the update applied to the bias block, or to the running block.
-/
import proofs.«154813_j36567351558281_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem origin_zero : (![0, 0] : Fin 2 → Nat) = fun _ => 0 := funext fun a => by fin_cases a <;> rfl

/-- A later contraction step: the buffer held `acc`, and the one store writes the update of `acc` by the two
    input blocks. -/
theorem later_step (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1024x4096 .f32) (harg5 : arg5.IsWhole) (hc0 : ¬cond0_0 i)
    (xs : Vec F S1024x256 .f32) (ws : Vec F S4096x256 .bf16) (bias : Vec F S1x4096 .f32) (acc : Vec F S1024x4096 .f32) :
    out0_B_3 c i arg2 harg2 arg3 harg3 arg4 harg4 arg5 harg5 hc0 xs ws bias acc = k0_pay2 xs ws acc := by
  unfold out0_B_3
  rw [View.read_writes_eq_canon _ _ _ (cover0_B_3 c i arg2 harg2 arg3 harg3 arg4 harg4 arg5 harg5 hc0 xs ws bias acc)]
  unfold kernelRun0_B
  dsimp only
  sl_unfold_words
  rw [View.canon_unit_zero origin_zero]
  simp only [View.readAt_eq_ld, harg2.read_unread, harg3.read_unread, harg5.read_unread,
    View.ld_unit_zero (S := S1024x256) origin_zero, View.ld_unit_zero (S := S4096x256) origin_zero,
    View.ld_unit_zero (S := S1024x4096) origin_zero]

/-- The first contraction step: the bias block is stored, read back, and updated by the two input blocks. -/
theorem first_step (c : Dev nD) (i : grid0.Coords) (arg2 : Memref sig .tc .vmem S1024x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1024x4096 .f32) (harg5 : arg5.IsWhole) (hc0 : cond0_0 i)
    (xs : Vec F S1024x256 .f32) (ws : Vec F S4096x256 .bf16) (bias : Vec F S1x4096 .f32) :
    out0_A_3 c i arg2 harg2 arg3 harg3 arg4 harg4 arg5 harg5 hc0 xs ws bias = k0_pay2 xs ws (k0_pay1 bias) := by
  unfold out0_A_3
  rw [View.read_writes_eq_canon _ _ _ (cover0_A_3 c i arg2 harg2 arg3 harg3 arg4 harg4 arg5 harg5 hc0 xs ws bias)]
  unfold kernelRun0_A
  dsimp only
  sl_unfold_words
  rw [View.canon_cons_unit_zero (S := S1024x4096) origin_zero, View.readCov_unit_zero (S := S1024x4096) _ origin_zero]
  simp only [View.readAt_eq_ld, harg2.read_unread, harg3.read_unread, harg4.read_unread,
    View.ld_unit_zero (S := S1024x256) origin_zero, View.ld_unit_zero (S := S4096x256) origin_zero,
    View.ld_unit_zero (S := S1x4096) origin_zero]

end Cert.KernelIdeal.Pieces

end
-- ==== Proof.Blocks.lean ====
/-
  The blocks the pipeline hands the kernel body, read as entries of the arrays the region finds. Grid point `t`
  of the 16 x 16 grid is row tile `t / 16` at contraction step `t % 16`: the x block holds rows
  1024 * (t / 16) + p and columns 256 * (t % 16) + j, the weight block all 4096 rows at the same columns, the
  bias block is the whole bias row, and the output block is row tile `t / 16`, all 4096 columns.
-/
import proofs.«154813_j36567351558281_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The three operand arrays as the region finds them, at their literal types. -/
abbrev rowsArr (c : Dev nD) : Vec Ideal S16384x4096 .f32 := V m c main_v8
abbrev weightArr (c : Dev nD) : Vec Ideal S4096x4096 .bf16 := V m c main_v6
abbrev biasArr (c : Dev nD) : Vec Ideal S1x4096 .f32 := V m c main_v7

/-- The three input blocks at a grid point, at their literal types. -/
abbrev xBlock (c : Dev nD) (t : Fin cfg0.N) : Vec Ideal S1024x256 .f32 := iblk m c 0 t
abbrev wBlock (c : Dev nD) (t : Fin cfg0.N) : Vec Ideal S4096x256 .bf16 := iblk m c 1 t
abbrev bBlock (c : Dev nD) (t : Fin cfg0.N) : Vec Ideal S1x4096 .f32 := iblk m c 2 t

theorem point_lt (t : Fin cfg0.N) : t.val < 256 := lt_of_lt_of_eq t.isLt (show cfg0.N = 256 from N_0)

/-- Row `p` of row tile `t / 16`. -/
def rowOf (t : Fin cfg0.N) (p : Fin 1024) : Fin 16384 := ⟨1024 * (t.val / 16) + p.val, by have := point_lt t; omega⟩

/-- Column `j` of the 256-wide slab of contraction step `k % 16`. -/
def colOf (k : ℕ) (j : Fin 256) : Fin 4096 := ⟨256 * (k % 16) + j.val, by omega⟩

theorem colOf_mod (k : ℕ) (j : Fin 256) : colOf (k % 16) j = colOf k j := Fin.ext (by simp only [colOf, Nat.mod_mod])

/-- The windows' index maps over the grid: row tile and contraction step. -/
theorem index_x : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
theorem index_w : ∀ t : Fin cfg0.N, win0_1.index t (0 : Fin 2) = 0 ∧ win0_1.index t (1 : Fin 2) = t.val % 16 :=
  (by decide +kernel : ∀ t : Fin grid0.N, win0_1.index t (0 : Fin 2) = 0 ∧ win0_1.index t (1 : Fin 2) = t.val % 16)
theorem index_b : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_o : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- The x block at point `t`: rows of row tile `t / 16`, columns of slab `t % 16`. -/
theorem xBlock_at (c : Dev nD) (t : Fin cfg0.N) (p : Fin 1024) (j : Fin 256) :
    xBlock m c t (ix2 p j) = rowsArr m c (ix2 (rowOf t p) (colOf t.val j)) := by
  unfold xBlock iblk
  rw [View.read_apply]
  show V m c main_v8 _ = V m c main_v8 _
  congr 1
  funext a
  apply Fin.ext
  match a with
  | ⟨0, _⟩ => show win0_0.index t 0 * 1024 + 1 * p.val = 1024 * (t.val / 16) + p.val; rw [(index_x t).1]; omega
  | ⟨1, _⟩ => show win0_0.index t 1 * 256 + 1 * j.val = 256 * (t.val % 16) + j.val; rw [(index_x t).2]; omega

/-- The weight block at point `t`: every row, columns of slab `t % 16`. -/
theorem wBlock_at (c : Dev nD) (t : Fin cfg0.N) (q : Fin 4096) (j : Fin 256) :
    wBlock m c t (ix2 q j) = weightArr m c (ix2 q (colOf t.val j)) := by
  unfold wBlock iblk
  rw [View.read_apply]
  show V m c main_v6 _ = V m c main_v6 _
  congr 1
  funext a
  apply Fin.ext
  match a with
  | ⟨0, _⟩ => show win0_1.index t 0 * 4096 + 1 * q.val = q.val; rw [(index_w t).1]; omega
  | ⟨1, _⟩ => show win0_1.index t 1 * 256 + 1 * j.val = 256 * (t.val % 16) + j.val; rw [(index_w t).2]; omega

/-- The bias block at any point is the bias row. -/
theorem bBlock_at (c : Dev nD) (t : Fin cfg0.N) (q : Fin 4096) :
    bBlock m c t (ix2 (0 : Fin 1) q) = biasArr m c (ix2 (0 : Fin 1) q) := by
  unfold bBlock iblk
  rw [View.read_apply]
  show V m c main_v7 _ = V m c main_v7 _
  congr 1
  funext a
  apply Fin.ext
  match a with
  | ⟨0, _⟩ => show win0_2.index t 0 * 1 + 1 * 0 = 0; rw [(index_b t).1]
  | ⟨1, _⟩ => show win0_2.index t 1 * 4096 + 1 * q.val = q.val; rw [(index_b t).2]; omega

end Cert.KernelIdeal.Blocks

end
-- ==== Proof.Payload.lean ====
/-
  The two values the kernel body stores, read at an index of the output block at the ideal instance: the reset
  value is the bias row repeated down the block, and the update adds to the running block one 256-wide slab of the
  contraction (row `p` of the x block against row `q` of the weight block).
-/
import proofs.«154813_j36567351558281_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The broadcast of the bias row -/

/-- A [1, 4096] row broadcast to [1024, 4096] reads, at row `p` and column `q`, the row's entry `q`. -/
theorem bcast_row_at (y : FVec Ideal S1x4096 .f32) (p : Fin 1024) (q : Fin 4096) :
    broadcastTo S1024x4096 y broadcasts_S1x4096_S1024x4096 (ix2 p q) = y (ix2 (0 : Fin 1) q) :=
  broadcastTo_apply y broadcasts_S1x4096_S1024x4096 (ix2 p q) (ix2 (0 : Fin 1) q) (fun a => match a with
    | ⟨0, _⟩ => by show 0 = if (1 : Nat) = 1 then 0 else _; rw [if_pos rfl]
    | ⟨1, _⟩ => by show q.val = if (4096 : Nat) = 1 then 0 else _; rw [if_neg (by decide)]; rfl)

theorem reset_at (x2 : Vec Ideal S1x4096 .f32) (p : Fin 1024) (q : Fin 4096) :
    (k0_pay1 (F := Ideal) x2) (ix2 p q) = x2 (ix2 (0 : Fin 1) q) := by
  unfold k0_pay1
  refine (bcast_row_at _ p q).trans ?_
  rw [shapeCast_self, shapeCast_self]

/-! ## The contraction: axis 1 of the x block against axis 1 of the weight block -/

theorem lhs_dot_0 (i : S1024x4096.Idx) (k : dot_S1024x256_S4096x256_S1024x4096_1_1_0_0_n_n.contr.Idx) :
    (dot_S1024x256_S4096x256_S1024x4096_1_1_0_0_n_n.lhsIdx i k 0).val = (i 0).val := by
  unfold DotDims.lhsIdx
  rw [dif_neg (show ¬(0 : Fin S1024x256.rank) ∈ dot_S1024x256_S4096x256_S1024x4096_1_1_0_0_n_n.lhsBatch by decide), dif_pos (show (0 : Fin S1024x256.rank) ∈ dot_S1024x256_S4096x256_S1024x4096_1_1_0_0_n_n.lhsNonContracting by decide)]
  rfl
theorem lhs_dot_1 (i : S1024x4096.Idx) (k : dot_S1024x256_S4096x256_S1024x4096_1_1_0_0_n_n.contr.Idx) :
    (dot_S1024x256_S4096x256_S1024x4096_1_1_0_0_n_n.lhsIdx i k 1).val = (k ⟨0, by decide⟩).val :=
  dot_S1024x256_S4096x256_S1024x4096_1_1_0_0_n_n.lhsIdx_val_of_single rfl i k
theorem rhs_dot_0 (i : S1024x4096.Idx) (k : dot_S1024x256_S4096x256_S1024x4096_1_1_0_0_n_n.contr.Idx) :
    (dot_S1024x256_S4096x256_S1024x4096_1_1_0_0_n_n.rhsIdx i k 0).val = (i 1).val := by
  unfold DotDims.rhsIdx
  rw [dif_neg (show ¬(0 : Fin S4096x256.rank) ∈ dot_S1024x256_S4096x256_S1024x4096_1_1_0_0_n_n.rhsBatch by decide), dif_pos (show (0 : Fin S4096x256.rank) ∈ dot_S1024x256_S4096x256_S1024x4096_1_1_0_0_n_n.rhsNonContracting by decide)]
  rfl
theorem rhs_dot_1 (i : S1024x4096.Idx) (k : dot_S1024x256_S4096x256_S1024x4096_1_1_0_0_n_n.contr.Idx) :
    (dot_S1024x256_S4096x256_S1024x4096_1_1_0_0_n_n.rhsIdx i k 1).val = (k ⟨0, by decide⟩).val :=
  dot_S1024x256_S4096x256_S1024x4096_1_1_0_0_n_n.rhsIdx_val_of_single rfl i k

/-- The matmul into the zero accumulator, read at row `p` and column `q`: the sum over the 256 contracted places of
    row `p` of the left operand times row `q` of the right one. -/
theorem matmul_at (a : FVec Ideal S1024x256 .bf16) (w : FVec Ideal S4096x256 .bf16) (p : Fin 1024) (q : Fin 4096) :
    matmul (F := Ideal) dot_S1024x256_S4096x256_S1024x4096_1_1_0_0_n_n none a w (constant (F := Ideal) S1024x4096 .f32 0x00000000#32) (ix2 p q)
      = ∑ j : Fin 256, a (ix2 p j) * w (ix2 q j) := by
  simp only [matmul]
  rw [Ideal.matmul_constant_zero_apply, ← Equiv.sum_comp (ValueIdx.contrEquiv1 dot_S1024x256_S4096x256_S1024x4096_1_1_0_0_n_n 256 rfl rfl).symm]
  refine Finset.sum_congr rfl fun k _ => ?_
  have hk := ValueIdx.contrEquiv1_symm_val dot_S1024x256_S4096x256_S1024x4096_1_1_0_0_n_n 256 rfl rfl k
  have el : dot_S1024x256_S4096x256_S1024x4096_1_1_0_0_n_n.lhsIdx (ix2 p q) ((ValueIdx.contrEquiv1 dot_S1024x256_S4096x256_S1024x4096_1_1_0_0_n_n 256 rfl rfl).symm k) = ix2 p k := funext fun b => Fin.ext (by
    match b with
    | ⟨0, _⟩ => exact lhs_dot_0 _ _
    | ⟨1, _⟩ => exact (lhs_dot_1 _ _).trans hk)
  have er : dot_S1024x256_S4096x256_S1024x4096_1_1_0_0_n_n.rhsIdx (ix2 p q) ((ValueIdx.contrEquiv1 dot_S1024x256_S4096x256_S1024x4096_1_1_0_0_n_n 256 rfl rfl).symm k) = ix2 q k := funext fun b => Fin.ext (by
    match b with
    | ⟨0, _⟩ => exact rhs_dot_0 _ _
    | ⟨1, _⟩ => exact (rhs_dot_1 _ _).trans hk)
  rw [el, er]

/-- The update over variables of the function type: the running block plus the slab of the contraction. -/
theorem update_aux (a : FVec Ideal S1024x256 .f32) (w : FVec Ideal S4096x256 .bf16) (c : FVec Ideal S1024x4096 .f32)
    (p : Fin 1024) (q : Fin 4096) :
    (k0_pay2 (F := Ideal) a w c) (ix2 p q) = c (ix2 p q) + ∑ j : Fin 256, a (ix2 p j) * w (ix2 q j) := by
  unfold k0_pay2
  refine (addf_apply _ _ (ix2 p q)).trans ?_
  rw [shapeCast_self, shapeCast_self, shapeCast_self]
  exact congrArg (c (ix2 p q) + ·) (matmul_at _ _ p q)

theorem update_at (v3 : Vec Ideal S1024x256 .f32) (v6 : Vec Ideal S4096x256 .bf16) (v9 : Vec Ideal S1024x4096 .f32)
    (p : Fin 1024) (q : Fin 4096) :
    (k0_pay2 (F := Ideal) v3 v6 v9) (ix2 p q) = v9 (ix2 p q) + ∑ j : Fin 256, v3 (ix2 p j) * v6 (ix2 q j) :=
  update_aux v3 v6 v9 p q

end Cert.KernelIdeal.Payload

end
-- ==== Proof.Accum.lean ====
/-
  The accumulation over the contraction axis. The output block of a row tile stays in its staging buffer for the
  sixteen contraction steps of that tile: the first step writes the bias row plus the first 256-wide slab of the
  contraction, each later step adds its slab to what the step before left. So after the point at step `k` the
  entry at row `p`, column `q` is the bias at `q` plus the slabs `0 … k` of row `p` of the tile against weight row `q`
  — by induction on the grid point, the extended reals' addition being associative.
-/
import proofs.«154813_j36567351558281_1_alg».proof.Proof.Pieces
import proofs.«154813_j36567351558281_1_alg».proof.Proof.Blocks
import proofs.«154813_j36567351558281_1_alg».proof.Proof.Payload

noncomputable section

open Idealize.ShloMosaic Idealize.ShloMosaic.TcCoe Idealize.SL.Sem

namespace Cert.KernelIdeal.Accum

open Cert.KernelIdeal Cert.KernelIdeal.Gen Idealize.ShloMosaic.ValueIdx
open Cert.KernelIdeal.Blocks Cert.KernelIdeal.Pieces Cert.KernelIdeal.Payload

variable (m : (ℓ : Loc nD τ sig) → Buf (Elt Ideal) ℓ)

/-- Slab `k % 16` of the contraction of row `r` of the reshaped x with row `q` of the fused weight. -/
def slab (c : Dev nD) (r : Fin 16384) (q : Fin 4096) (k : ℕ) : EReal :=
  ∑ j : Fin 256, rowsArr m c (ix2 r (colOf k j)) * weightArr m c (ix2 q (colOf k j))

theorem slab_mod (c : Dev nD) (r : Fin 16384) (q : Fin 4096) (k : ℕ) : slab m c (r) q (k % 16) = slab m c r q k := by
  unfold slab
  simp only [colOf_mod]

/-- What the output block's staging buffer holds after point `n`, at its literal type. -/
abbrev running (c : Dev nD) (n : ℕ) (hn : n < cfg0.N) : Vec Ideal S1024x4096 .f32 := outsAt0 m c n hn

/-- The update adds one slab: for blocks `xs`, `ws` whose row `p` resp. `q` holds row `r` of x resp. row `q` of the weight
    at the columns of slab `k`, the updated entry at `(p, q)` is the old entry plus that slab. -/
theorem update_entry (c : Dev nD) (xs : Vec Ideal S1024x256 .f32) (ws : Vec Ideal S4096x256 .bf16)
    (acc : Vec Ideal S1024x4096 .f32) (p : Fin 1024) (q : Fin 4096) (r : Fin 16384) (k : ℕ)
    (hx : ∀ j : Fin 256, xs (ix2 p j) = rowsArr m c (ix2 r (colOf k j)))
    (hw : ∀ j : Fin 256, ws (ix2 q j) = weightArr m c (ix2 q (colOf k j))) :
    (k0_pay2 (F := Ideal) xs ws acc) (ix2 p q) = acc (ix2 p q) + slab m c r q k := by
  rw [update_at xs ws acc p q]
  unfold slab
  exact congrArg (fun z => acc (ix2 p q) + z) (Finset.sum_congr rfl fun j _ => by rw [hx j, hw j])

/-- A point at contraction step 0: the bias plus the first slab. -/
theorem at_first (c : Dev nD) (t : Fin cfg0.N) (h0 : t.val % 16 = 0) (p : Fin 1024) (q : Fin 4096) :
    running m c t.val t.isLt (ix2 p q) = biasArr m c (ix2 (0 : Fin 1) q) + slab m c (rowOf t p) q t.val := by
  show outsAt0 m c t.val t.isLt (ix2 p q) = _
  rw [outsAt0_A m c t h0]
  refine (congrFun (first_step (F := Ideal) c (grid0.coords t) (ms0_0 t) (hs0_0 t) (ms0_1 t) (hs0_1 t) (ms0_2 t) (hs0_2 t) (ms0_3 t) (hs0_3 t) ((hcond0_0 t).mpr h0) (xBlock m c t) (wBlock m c t) (bBlock m c t)) (ix2 p q)).trans ?_
  refine (update_entry m c (xBlock m c t) (wBlock m c t) (k0_pay1 (F := Ideal) (bBlock m c t)) p q (rowOf t p) t.val
    (fun j => xBlock_at m c t p j) (fun j => wBlock_at m c t q j)).trans ?_
  rw [reset_at (bBlock m c t) p q, bBlock_at m c t q]

/-- A point at a later contraction step: what the point before left, plus this point's slab. -/
theorem at_later (c : Dev nD) (t : Fin cfg0.N) (h0 : ¬t.val % 16 = 0) (p : Fin 1024) (q : Fin 4096) :
    running m c t.val t.isLt (ix2 p q)
      = running m c (t.val - 1) (Nat.lt_of_le_of_lt (Nat.sub_le _ _) t.isLt) (ix2 p q) + slab m c (rowOf t p) q t.val := by
  show outsAt0 m c t.val t.isLt (ix2 p q) = _
  rw [outsAt0_B m c t h0]
  refine (congrFun (later_step (F := Ideal) c (grid0.coords t) (ms0_0 t) (hs0_0 t) (ms0_1 t) (hs0_1 t) (ms0_2 t) (hs0_2 t) (ms0_3 t) (hs0_3 t) (fun h => h0 ((hcond0_0 t).mp h)) (xBlock m c t) (wBlock m c t) (bBlock m c t) (running m c (t.val - 1) (Nat.lt_of_le_of_lt (Nat.sub_le _ _) t.isLt))) (ix2 p q)).trans ?_
  exact update_entry m c (xBlock m c t) (wBlock m c t) (running m c (t.val - 1) (Nat.lt_of_le_of_lt (Nat.sub_le _ _) t.isLt)) p q (rowOf t p) t.val
    (fun j => xBlock_at m c t p j) (fun j => wBlock_at m c t q j)

/-- THE INVARIANT: after point `n` the block holds the bias plus the slabs of steps `0 … n % 16` of its row tile. -/
theorem running_eq (c : Dev nD) : ∀ (n : ℕ) (hn : n < cfg0.N) (p : Fin 1024) (q : Fin 4096),
    running m c n hn (ix2 p q)
      = biasArr m c (ix2 (0 : Fin 1) q) + ∑ k ∈ Finset.range (n % 16 + 1), slab m c (rowOf ⟨n, hn⟩ p) q k
  | 0, hn, p, q => by
    have e := at_first m c ⟨0, hn⟩ rfl p q
    rw [Nat.zero_mod, Nat.zero_add, Finset.sum_range_one]
    exact e
  | n + 1, hn, p, q => by
    have hN : n + 1 < 256 := lt_of_lt_of_eq hn (show cfg0.N = 256 from N_0)
    by_cases h0 : (n + 1) % 16 = 0
    · have e := at_first m c ⟨n + 1, hn⟩ h0 p q
      have hs : slab m c (rowOf ⟨n + 1, hn⟩ p) q (n + 1) = slab m c (rowOf ⟨n + 1, hn⟩ p) q 0 := by
        rw [← slab_mod m c (rowOf ⟨n + 1, hn⟩ p) q (n + 1), h0]
      rw [h0, Nat.zero_add, Finset.sum_range_one, ← hs]
      exact e
    · have e := at_later m c ⟨n + 1, hn⟩ h0 p q
      have ih := running_eq c n (Nat.lt_of_succ_lt hn) p q
      have hrow : rowOf ⟨n + 1, hn⟩ p = rowOf ⟨n, Nat.lt_of_succ_lt hn⟩ p := Fin.ext (by simp only [rowOf]; omega)
      have hstep : (n + 1) % 16 = n % 16 + 1 := by omega
      have hs : slab m c (rowOf ⟨n, Nat.lt_of_succ_lt hn⟩ p) q (n + 1) = slab m c (rowOf ⟨n, Nat.lt_of_succ_lt hn⟩ p) q (n % 16 + 1) := by
        rw [← slab_mod m c (rowOf ⟨n, Nat.lt_of_succ_lt hn⟩ p) q (n + 1), hstep]
      rw [hstep, Finset.sum_range_succ, hrow, ← hs, ← add_assoc, ← ih]
      rw [hrow] at e
      exact e

end Cert.KernelIdeal.Accum

end
-- ==== Proof.Final.lean ====
/-
  The output array after the run. At the sixteenth contraction step of a row tile the running block has taken all
  sixteen 256-wide slabs, which together are the whole contraction over the 4096 columns; that block is written
  back to rows 1024 * tile … 1024 * tile + 1023 of the array, and the sixteen tiles' blocks fill the array. So the
  array ends, at row `r` and column `q`, at the bias at `q` plus the contraction of row `r` of the reshaped x with row `q`
  of the fused weight.
-/
import proofs.«154813_j36567351558281_1_alg».proof.Proof.Accum
import Mathlib.Logic.Equiv.Fin.Basic
import Mathlib.Algebra.BigOperators.Fin

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx
open Cert.KernelIdeal.Blocks Cert.KernelIdeal.Accum

variable (m : (ℓ : Loc nD τ sig) → Buf (Elt Ideal) ℓ)

/-- The bias at `q` plus the whole contraction of row `r` with weight row `q`. -/
def entryAt (c : Dev nD) (r : Fin 16384) (q : Fin 4096) : EReal :=
  biasArr m c (ix2 (0 : Fin 1) q) + ∑ d : Fin 4096, rowsArr m c (ix2 r d) * weightArr m c (ix2 q d)

/-- The whole output array. -/
def outArr (c : Dev nD) : Vec Ideal S16384x4096 .f32 := fun i => entryAt m c (i 0) (i 1)

/-- Sixteen slabs of 256 columns are the 4096 columns: column 256 * k + j is the pair (k, j). -/
theorem sum_slabs {M : Type} [AddCommMonoid M] (f : Fin 4096 → M) :
    ∑ k ∈ Finset.range 16, ∑ j : Fin 256, f (colOf k j) = ∑ d : Fin 4096, f d := by
  rw [Finset.sum_range (fun k => ∑ j : Fin 256, f (colOf k j))]
  rw [← Fintype.sum_prod_type' (fun (k : Fin 16) (j : Fin 256) => f (colOf k.val j))]
  rw [← Equiv.sum_comp (finProdFinEquiv (m := 16) (n := 256)) f]
  refine Finset.sum_congr rfl fun x _ => congrArg f (Fin.ext ?_)
  have h1 := x.1.isLt
  have h2 := x.2.isLt
  show 256 * (x.1.val % 16) + x.2.val = x.2.val + 256 * x.1.val
  omega

theorem slabs_full (c : Dev nD) (r : Fin 16384) (q : Fin 4096) :
    ∑ k ∈ Finset.range 16, slab m c r q k = ∑ d : Fin 4096, rowsArr m c (ix2 r d) * weightArr m c (ix2 q d) :=
  sum_slabs (fun d => rowsArr m c (ix2 r d) * weightArr m c (ix2 q d))

/-- At the last contraction step of its row tile the running block is the finished block. -/
theorem running_last (c : Dev nD) (t : Fin cfg0.N) (h15 : t.val % 16 = 15) (y : S1024x4096.Idx) :
    running m c t.val t.isLt y = entryAt m c (rowOf t (y 0)) (y 1) := by
  obtain ⟨p, q, rfl⟩ : ∃ (p : Fin 1024) (q : Fin 4096), y = ix2 p q := ⟨y 0, y 1, eq_ix2 y⟩
  rw [running_eq m c t.val t.isLt p q, h15]
  show _ + ∑ k ∈ Finset.range 16, slab m c (rowOf t p) q k = entryAt m c (rowOf t p) q
  rw [slabs_full]
  rfl

/-- What a writing-back point writes is its block of the whole array. -/
theorem flushed_eq (c : Dev nD) (t : Fin cfg0.N) (hf : (cfg0.win 3).flush t = true) :
    (dats m 0 c).flushed 3 t = ((cfg0.win 3).blk t).view.read (Elt Ideal) (outArr m c) := by
  have h15 : t.val % 16 = 15 := (flush0_3 t).mp hf
  show (cfg0.win 3).cut (grid0.coords t) ((dats m 0 c).after 3 t) = _
  rw [after0_3]
  funext y
  rw [View.read_apply]
  refine (running_last m c t h15 y).trans ?_
  show entryAt m c (rowOf t (y 0)) (y 1) = entryAt m c ((((cfg0.win 3).blk t).view.emb y) 0) ((((cfg0.win 3).blk t).view.emb y) 1)
  refine congrArg₂ (entryAt m c) (Fin.ext ?_) (Fin.ext ?_)
  · show 1024 * (t.val / 16) + (y 0).val = win0_3.index t 0 * 1024 + 1 * (y 0).val
    rw [(index_o t).1]; omega
  · show (y 1).val = win0_3.index t 1 * 4096 + 1 * (y 1).val
    rw [(index_o t).2]; omega

/-- An index of the array is in point `t`'s block iff each coordinate is in the block's range on its axis. -/
theorem mem_block (t : Fin cfg0.N) (i : S16384x4096.Idx) :
    i ∈ ((cfg0.win 3).blk t).view.set ↔ ∀ a : Fin 2, win0_3.index t a * S1024x4096.size a ≤ (i a).val ∧ (i a).val < win0_3.index t a * S1024x4096.size a + S1024x4096.size a := by
  show i ∈ ((View.whole main_v9).slice (win0_3.rect t)).set ↔ _
  rw [View.set_slice_whole, Rect.mem_set_unit]
  exact Iff.rfl

/-- Every index lies in the block written back at the last contraction step of its row tile. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hlt : 16 * ((i 0).val / 1024) + 15 < cfg0.N := by rw [show cfg0.N = 256 from N_0]; omega
  refine ⟨⟨16 * ((i 0).val / 1024) + 15, hlt⟩, (flush0_3 _).mpr (by show (16 * ((i 0).val / 1024) + 15) % 16 = 15; omega), ?_⟩
  rw [mem_block]
  intro a
  match a with
  | ⟨0, _⟩ =>
    show win0_3.index ⟨16 * ((i 0).val / 1024) + 15, hlt⟩ 0 * 1024 ≤ (i 0).val ∧ (i 0).val < win0_3.index ⟨16 * ((i 0).val / 1024) + 15, hlt⟩ 0 * 1024 + 1024
    rw [(index_o ⟨16 * ((i 0).val / 1024) + 15, hlt⟩).1]
    show (16 * ((i 0).val / 1024) + 15) / 16 * 1024 ≤ (i 0).val ∧ (i 0).val < (16 * ((i 0).val / 1024) + 15) / 16 * 1024 + 1024
    omega
  | ⟨1, _⟩ =>
    show win0_3.index ⟨16 * ((i 0).val / 1024) + 15, hlt⟩ 1 * 4096 ≤ (i 1).val ∧ (i 1).val < win0_3.index ⟨16 * ((i 0).val / 1024) + 15, hlt⟩ 1 * 4096 + 4096
    rw [(index_o ⟨16 * ((i 0).val / 1024) + 15, hlt⟩).2]
    omega

/-- THE ARRAY after the run. -/
theorem final (c : Dev nD) : (dats m 0 c).arrAt 3 cfg0.N = outArr m c :=
  (dats m 0 c).arrAt_eq_of_cover 3 (outArr m c) (flushed_eq m c) covered

end Cert.KernelIdeal.Final

end
-- ==== Proof.Spec.lean ====
/-
  A linear layer with a low-rank update, written twice as ONE function of its five argument arrays over the
  extended reals: `x` [8, 2048, 4096], the weight `W` [4096, 4096] (row `o` holds output feature `o`), the bias
  `b` [4096], and the two low-rank factors `a` [8, 4096] and `l` [4096, 8], with the scale alpha / rank = 2.

  * the FUSED form folds the update into the weight first: with Delta[o, d] = sum_r a[r, o] * l[d, r],
        out[s, o] = b[o] + sum_d x[s, d] * (W[o, d] + 2 * Delta[o, d]);
  * the FACTORED form keeps the update as two thin contractions:
        out[s, o] = (sum_d x[s, d] * W[o, d] + b[o]) + (sum_r (sum_d x[s, d] * l[d, r]) * a[r, o]) * 2.

  Over the reals the two agree by distributivity and an exchange of the two finite sums; over the extended reals
  that needs every entry finite (a product with an infinity does not distribute over a sum of mixed signs).
  The word 0x40000000 is the f32 pattern of 2; it is the same word in both forms and is never evaluated here.
-/
import Idealize.ShloMosaic.PureOps.Ideal
import Idealize.ShloMosaic.Lib.ValueIdx

noncomputable section

namespace Cert.LoraLinear

open Idealize.ShloMosaic Idealize.ShloMosaic.ValueIdx

/-- The scale alpha / rank, as the f32 word both programs carry. -/
abbrev scale : EReal := Ideal.ofBits .f32 0x40000000#32

variable (x : FVec Ideal ⟨3, ![8, 2048, 4096]⟩ .f32) (W : FVec Ideal ⟨2, ![4096, 4096]⟩ .f32)
  (b : FVec Ideal ⟨1, ![4096]⟩ .f32) (a : FVec Ideal ⟨2, ![8, 4096]⟩ .f32) (l : FVec Ideal ⟨2, ![4096, 8]⟩ .f32)

/-- The low-rank product: Delta[o, d] = sum over the rank axis of a[r, o] * l[d, r]. -/
def delta (o d : Fin 4096) : EReal := ∑ r : Fin 8, a (ix2 r o) * l (ix2 d r)

/-- The fused weight W[o, d] + 2 * Delta[o, d]. -/
def fused (o d : Fin 4096) : EReal := W (ix2 o d) + scale * delta a l o d

/-- The fused form at batch `n`, row `s`, output feature `o`: the bias plus ONE contraction with the fused weight. -/
def fusedAt (n : Fin 8) (s : Fin 2048) (o : Fin 4096) : EReal :=
  b (ix1 o) + ∑ d : Fin 4096, x (ix3 n s d) * fused W a l o d

/-- The factored form at the same place: the base layer plus the scaled pair of thin contractions. -/
def factoredAt (n : Fin 8) (s : Fin 2048) (o : Fin 4096) : EReal :=
  (∑ d : Fin 4096, x (ix3 n s d) * W (ix2 o d) + b (ix1 o))
    + (∑ r : Fin 8, (∑ d : Fin 4096, x (ix3 n s d) * l (ix2 d r)) * a (ix2 r o)) * scale

/-- The fused form as a whole array. -/
def fusedOut : FVec Ideal ⟨3, ![8, 2048, 4096]⟩ .f32 := fun i => fusedAt x W b a l (i 0) (i 1) (i 2)

/-- The factored form as a whole array. -/
def factoredOut : FVec Ideal ⟨3, ![8, 2048, 4096]⟩ .f32 := fun i => factoredAt x W b a l (i 0) (i 1) (i 2)

/-- An array every entry of which is a real number. -/
def AllReal {s : Shape} (v : s.Idx → EReal) : Prop := ∀ i, ∃ r : ℝ, v i = (r : EReal)

end Cert.LoraLinear

end
-- ==== Proof.Entry.lean ====
/-
  What the kernel region finds in its three operand arrays, at the ideal instance: the host lines before the
  region have reshaped `x` to 16384 rows, fused the low-rank update into the weight, and laid the bias out as one row.
-/
import proofs.«154813_j36567351558281_1_alg».proof.Proof.Spec
import proofs.«154813_j36567351558281_1_alg».proof.Proof.Gen.KernelIdeal.Frame
import Idealize.ShloMosaic.Lib.Pipeline.Value
import Idealize.ShloMosaic.Lib.StableHlo.Run
import Idealize.ShloMosaic.PureOps.Ideal.Laws

noncomputable section

namespace Cert.KernelIdeal.Entry

open Idealize.ShloMosaic Idealize.ShloMosaic.TcCoe Idealize.SL.Sem Idealize.ShloMosaic.ValueIdx
open Cert.KernelIdeal Cert.KernelIdeal.Gen Cert.LoraLinear

variable (m : (ℓ : Loc nD τ sig) → Buf (Elt Ideal) ℓ)

/-- Row `r` of the reshaped `x` is row `r % 2048` of batch `r / 2048`. -/
theorem rows_at (c : Dev nD) (r : Fin 16384) (d : Fin 4096) :
    (V m c main_v8 : FVec Ideal S16384x4096 .f32) (ix2 r d)
      = (m ((c : Thread nD τ).loc main_arg0) : FVec Ideal S8x2048x4096 .f32)
          (ix3 (⟨r.val / 2048, by omega⟩ : Fin 8) (⟨r.val % 2048, by omega⟩ : Fin 2048) d) := by
  -- what the host lines leave in the buffer: the reshape of argument 0
  have e : (V m c main_v8 : S16384x4096.Idx → EReal)
      = shapeCast S16384x4096 (m ((c : Thread nD τ).loc main_arg0) : S8x2048x4096.Idx → EReal)
          shapeCasts_S8x2048x4096_S16384x4096 := by
    show StableHlo.after hostOps0 (fun b => m (c, b)) (Proc.devRef .tc main_v8) = _
    after_results
    rfl
  show (V m c main_v8 : S16384x4096.Idx → EReal) (ix2 r d) = _
  rw [e]
  -- a reshape keeps the row-major position: ((r / 2048) * 2048 + r % 2048) * 4096 + d = r * 4096 + d
  refine shapeCast_apply _ _ _ _ ?_
  show ((⟨3, ![8, 2048, 4096]⟩ : Shape).rowMajor
      (ix3 (⟨r.val / 2048, by omega⟩ : Fin 8) (⟨r.val % 2048, by omega⟩ : Fin 2048) d)).val
    = ((⟨2, ![16384, 4096]⟩ : Shape).rowMajor (ix2 r d)).val
  rw [Shape.rowMajor_val_three, Shape.rowMajor_val_two]
  show (r.val / 2048 * 2048 + r.val % 2048) * 4096 + d.val = r.val * 4096 + d.val
  omega

/-! ## The fused weight

The host lines compute `W + 2 * (transpose a) · (transpose l)`. The product of the two transposes is a
contraction over the one rank axis; read at `(o, d)` it is the sum over `r` of `a[r, o] * l[d, r]`. -/

/-- The left operand's index keeps the output's row on its axis 0 … -/
theorem lhs_lowrank_0 (i : S4096x4096.Idx) (q : dot_S4096x8_S8x4096_S4096x4096_1_0_0_1_n_n.contr.Idx) :
    (dot_S4096x8_S8x4096_S4096x4096_1_0_0_1_n_n.lhsIdx i q 0).val = (i 0).val := by
  unfold DotDims.lhsIdx
  rw [dif_neg (show ¬(0 : Fin S4096x8.rank) ∈ dot_S4096x8_S8x4096_S4096x4096_1_0_0_1_n_n.lhsBatch by decide), dif_pos (show (0 : Fin S4096x8.rank) ∈ dot_S4096x8_S8x4096_S4096x4096_1_0_0_1_n_n.lhsNonContracting by decide)]
  rfl
/-- … and carries the contraction coordinate on its axis 1. -/
theorem lhs_lowrank_1 (i : S4096x4096.Idx) (q : dot_S4096x8_S8x4096_S4096x4096_1_0_0_1_n_n.contr.Idx) :
    (dot_S4096x8_S8x4096_S4096x4096_1_0_0_1_n_n.lhsIdx i q 1).val = (q ⟨0, by decide⟩).val :=
  dot_S4096x8_S8x4096_S4096x4096_1_0_0_1_n_n.lhsIdx_val_of_single rfl i q
/-- The right operand's index carries the contraction coordinate on its axis 0 … -/
theorem rhs_lowrank_0 (i : S4096x4096.Idx) (q : dot_S4096x8_S8x4096_S4096x4096_1_0_0_1_n_n.contr.Idx) :
    (dot_S4096x8_S8x4096_S4096x4096_1_0_0_1_n_n.rhsIdx i q 0).val = (q ⟨0, by decide⟩).val :=
  dot_S4096x8_S8x4096_S4096x4096_1_0_0_1_n_n.rhsIdx_val_of_single rfl i q
/-- … and keeps the output's column on its axis 1. -/
theorem rhs_lowrank_1 (i : S4096x4096.Idx) (q : dot_S4096x8_S8x4096_S4096x4096_1_0_0_1_n_n.contr.Idx) :
    (dot_S4096x8_S8x4096_S4096x4096_1_0_0_1_n_n.rhsIdx i q 1).val = (i 1).val := by
  unfold DotDims.rhsIdx
  rw [dif_neg (show ¬(1 : Fin S8x4096.rank) ∈ dot_S4096x8_S8x4096_S4096x4096_1_0_0_1_n_n.rhsBatch by decide), dif_pos (show (1 : Fin S8x4096.rank) ∈ dot_S4096x8_S8x4096_S4096x4096_1_0_0_1_n_n.rhsNonContracting by decide)]
  rfl

/-- The [4096, 8] × [8, 4096] product at `(o, d)`, over the extended reals: the sum over the rank axis. -/
theorem lowrank_apply (A : FVec Ideal S4096x8 .f32) (B : FVec Ideal S8x4096 .f32) (o d : Fin 4096) :
    Host.dotGeneral (F := Ideal) dot_S4096x8_S8x4096_S4096x4096_1_0_0_1_n_n none A B (ix2 o d) = ∑ k : Fin 8, A (ix2 o k) * B (ix2 k d) := by
  simp only [Host.dotGeneral]
  rw [Ideal.dotGeneral_apply, ← Equiv.sum_comp (ValueIdx.contrEquiv1 dot_S4096x8_S8x4096_S4096x4096_1_0_0_1_n_n 8 rfl rfl).symm]
  refine Finset.sum_congr rfl fun k _ => ?_
  have hk := ValueIdx.contrEquiv1_symm_val dot_S4096x8_S8x4096_S4096x4096_1_0_0_1_n_n 8 rfl rfl k
  have el : dot_S4096x8_S8x4096_S4096x4096_1_0_0_1_n_n.lhsIdx (ix2 o d) ((ValueIdx.contrEquiv1 dot_S4096x8_S8x4096_S4096x4096_1_0_0_1_n_n 8 rfl rfl).symm k) = ix2 o k :=
    funext fun a => Fin.ext (by
      match a with
      | ⟨0, _⟩ => exact lhs_lowrank_0 _ _
      | ⟨1, _⟩ => exact (lhs_lowrank_1 _ _).trans hk)
  have er : dot_S4096x8_S8x4096_S4096x4096_1_0_0_1_n_n.rhsIdx (ix2 o d) ((ValueIdx.contrEquiv1 dot_S4096x8_S8x4096_S4096x4096_1_0_0_1_n_n 8 rfl rfl).symm k) = ix2 k d :=
    funext fun a => Fin.ext (by
      match a with
      | ⟨0, _⟩ => exact (rhs_lowrank_0 _ _).trans hk
      | ⟨1, _⟩ => exact rhs_lowrank_1 _ _)
  rw [el, er]

/-- The weight operand is the fused weight (the change of float format is the identity here). -/
theorem weight_at (c : Dev nD) (o d : Fin 4096) :
    (V m c main_v6 : FVec Ideal S4096x4096 .bf16) (ix2 o d)
      = fused (m ((c : Thread nD τ).loc main_arg1)) (m ((c : Thread nD τ).loc main_arg3)) (m ((c : Thread nD τ).loc main_arg4)) o d := by
  -- what the host lines leave in the buffer
  have e : (V m c main_v6 : S4096x4096.Idx → EReal)
      = truncf .bf16 (addf (m ((c : Thread nD τ).loc main_arg1) : FVec Ideal S4096x4096 .f32)
          (mulf (broadcastInDim S4096x4096 ![] bcast_S_S4096x4096 (constant (F := Ideal) S_ .f32 0x40000000#32))
            (Host.dotGeneral (F := Ideal) (φ₁ := .f32) (φ₂ := .f32) dot_S4096x8_S8x4096_S4096x4096_1_0_0_1_n_n none
              (transpose S4096x8 [1, 0] (m ((c : Thread nD τ).loc main_arg3) : FVec Ideal S8x4096 .f32) transposes_S8x4096_S4096x8_1_0 : FVec Ideal S4096x8 .f32)
              (transpose S8x4096 [1, 0] (m ((c : Thread nD τ).loc main_arg4) : FVec Ideal S4096x8 .f32) transposes_S4096x8_S8x4096_1_0 : FVec Ideal S8x4096 .f32))))
          bitsLt_bf16_f32 := by
    show StableHlo.after hostOps0 (fun b => m (c, b)) (Proc.devRef .tc main_v6) = _
    after_results
  show (V m c main_v6 : S4096x4096.Idx → EReal) (ix2 o d) = _
  rw [e, truncf_apply, addf_apply, mulf_apply, lowrank_apply]
  -- the broadcast constant is the scale
  have hs : broadcastInDim S4096x4096 ![] bcast_S_S4096x4096 (constant (F := Ideal) S_ .f32 0x40000000#32) (ix2 o d) = scale :=
    (broadcastInDim_apply _ bcast_S_S4096x4096 _ (ix2 o d) ix0 (fun a => a.elim0)).trans (constant_apply _ _)
  rw [hs]
  unfold fused delta
  -- term by term, each transpose reads its operand at the swapped index
  refine congrArg (fun t => _ + scale * t) (Finset.sum_congr rfl fun k _ => ?_)
  rw [transpose_apply [1, 0] _ transposes_S8x4096_S4096x8_1_0 (ix2 o k) (ix2 k o)
        (fun b => match b with | ⟨0, _⟩ => rfl | ⟨1, _⟩ => rfl),
    transpose_apply [1, 0] _ transposes_S4096x8_S8x4096_1_0 (ix2 k d) (ix2 d k)
        (fun b => match b with | ⟨0, _⟩ => rfl | ⟨1, _⟩ => rfl)]

/-- The bias operand is the bias, as one row. -/
theorem bias_at (c : Dev nD) (q : Fin 4096) :
    (V m c main_v7 : FVec Ideal S1x4096 .f32) (ix2 (0 : Fin 1) q)
      = (m ((c : Thread nD τ).loc main_arg2) : FVec Ideal S4096 .f32) (ix1 q) := by
  -- what the host lines leave in the buffer: the reshape of argument 2
  have e : (V m c main_v7 : S1x4096.Idx → EReal)
      = shapeCast S1x4096 (m ((c : Thread nD τ).loc main_arg2) : S4096.Idx → EReal) shapeCasts_S4096_S1x4096 := by
    show StableHlo.after hostOps0 (fun b => m (c, b)) (Proc.devRef .tc main_v7) = _
    after_results
    rfl
  show (V m c main_v7 : S1x4096.Idx → EReal) (ix2 (0 : Fin 1) q) = _
  rw [e]
  -- a reshape keeps the row-major position: 0 * 4096 + q = q
  refine shapeCast_apply _ _ _ _ ?_
  show ((⟨1, ![4096]⟩ : Shape).rowMajor (ix1 q)).val = ((⟨2, ![1, 4096]⟩ : Shape).rowMajor (ix2 (0 : Fin 1) q)).val
  rw [Shape.rowMajor_val_one, Shape.rowMajor_val_two]
  show q.val = (0 : Fin 1).val * 4096 + q.val
  simp

end Cert.KernelIdeal.Entry

end
-- ==== Proof.KernelValue.lean ====
/-
  The kernel program's result as a function of its arguments. The line after the region reshapes the
  [16384, 4096] output array to [8, 2048, 4096], so entry (n, s, o) of the result is row 2048 * n + s, column o of
  the array: the bias at `o` plus the contraction of x[n, s, ·] with the fused weight's row `o`, which is the fused form
  of the layer at (n, s, o).
-/
import proofs.«154813_j36567351558281_1_alg».proof.Proof.Final
import proofs.«154813_j36567351558281_1_alg».proof.Proof.Entry
import Idealize.ShloMosaic.Lib.StableHlo.Run

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.LoraLinear
open Cert.KernelIdeal.Blocks Cert.KernelIdeal.Final Cert.KernelIdeal.Entry

variable (m : (ℓ : Loc nD τ sig) → Buf (Elt Ideal) ℓ) (ρ : Dev nD → PrngReg)

/-- Row 2048 * n + s of the reshaped arrays. -/
def rowIdx (n : Fin 8) (s : Fin 2048) : Fin 16384 := ⟨2048 * n.val + s.val, by omega⟩

/-- The output array's entry is the fused form of the layer. -/
theorem entry_is_fused (c : Dev nD) (n : Fin 8) (s : Fin 2048) (o : Fin 4096) :
    entryAt m c (rowIdx n s) o
      = fusedAt (m ((c : Thread nD τ).loc main_arg0)) (m ((c : Thread nD τ).loc main_arg1)) (m ((c : Thread nD τ).loc main_arg2))
          (m ((c : Thread nD τ).loc main_arg3)) (m ((c : Thread nD τ).loc main_arg4)) n s o := by
  unfold entryAt fusedAt
  have hb := bias_at m c o
  have hrow : ∀ d : Fin 4096, rowsArr m c (ix2 (rowIdx n s) d)
      = (m ((c : Thread nD τ).loc main_arg0) : FVec Ideal S8x2048x4096 .f32) (ix3 n s d) := fun d => by
    refine (rows_at m c (rowIdx n s) d).trans ?_
    have h1 : (⟨(rowIdx n s).val / 2048, by have := (rowIdx n s).isLt; omega⟩ : Fin 8) = n := Fin.ext (by simp only [rowIdx]; omega)
    have h2 : (⟨(rowIdx n s).val % 2048, by omega⟩ : Fin 2048) = s := Fin.ext (by simp only [rowIdx]; omega)
    rw [h1, h2]
  have hw : ∀ d : Fin 4096, weightArr m c (ix2 o d)
      = fused (m ((c : Thread nD τ).loc main_arg1)) (m ((c : Thread nD τ).loc main_arg3)) (m ((c : Thread nD τ).loc main_arg4)) o d :=
    fun d => weight_at m c o d
  exact congrArg₂ (· + ·) hb (Finset.sum_congr rfl fun d _ => by rw [hrow d, hw d])

/-- The buffer the line after the region writes: the reshape of the output array. -/
theorem tail_value (c : Dev nD) :
    Pipeline.afterTail₀ cfgs (dats m) 0 (V0 m) [hostOps1] c main_v10
      = shapeCast S8x2048x4096 (outArr m c) shapeCasts_S16384x4096_S8x2048x4096 := by
  have hw : Pipeline.withArrays (cfgs 0).spec c (V0 m c) (fun w => (dats m 0 c).arrAt w (cfgs 0).N) (Proc.devRef .tc main_v9)
      = outArr m c := (Pipeline.withArrays_arr spec0 launch0.win.arr_inj c _ _ 3).trans (final m c)
  unfold Pipeline.afterTail₀
  show StableHlo.after hostOps1 _ (Proc.devRef .tc main_v10) = _
  after_results
  rw [hw]
  rfl

/-- The result buffer is the fused form of the layer of the arguments. -/
theorem result_is_fused (c : Dev nD) :
    Pipeline.afterTail₀ cfgs (dats m) 0 (V0 m) [hostOps1] c main_v10
      = fusedOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_value]
  funext i
  obtain ⟨n, s, o, rfl⟩ : ∃ (n : Fin 8) (s : Fin 2048) (o : Fin 4096), i = ix3 n s o := ⟨i 0, i 1, i 2, eq_ix3 i⟩
  -- a reshape keeps the row-major position: (2048 * n + s) * 4096 + o = (n * 2048 + s) * 4096 + o
  have hr : shapeCast S8x2048x4096 (outArr m c) shapeCasts_S16384x4096_S8x2048x4096 (ix3 n s o) = outArr m c (ix2 (rowIdx n s) o) := by
    refine shapeCast_apply _ _ _ _ ?_
    show ((⟨2, ![16384, 4096]⟩ : Shape).rowMajor (ix2 (rowIdx n s) o)).val = ((⟨3, ![8, 2048, 4096]⟩ : Shape).rowMajor (ix3 n s o)).val
    rw [Shape.rowMajor_val_two, Shape.rowMajor_val_three]
    show (2048 * n.val + s.val) * 4096 + o.val = (n.val * 2048 + s.val) * 4096 + o.val
    omega
  rw [hr]
  exact entry_is_fused m c n s o

/-- THE KERNEL'S RUN, READ: every weakly fair execution ends with the result at the fused form of the layer of the
    arguments, the arguments unchanged. -/
theorem run : θ_run defs (onTc (τ := τ) (main (F := Ideal))) ⟨m, fun _ => 0, ρ⟩ fun r => ∀ c : Dev nD,
      r.2.mem ((c.tc : Thread nD τ).loc main_v10)
        = fusedOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (result_is_fused m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference program's result term, at the ideal instance, is the factored form of the layer.
-/
import proofs.«154813_j36567351558281_1_alg».proof.Proof.Spec
import proofs.«154813_j36567351558281_1_alg».proof.Proof.Gen.ReferenceIdeal.Read

noncomputable section

namespace Cert.ReferenceIdeal.RefValue

open Idealize.ShloMosaic Idealize.ShloMosaic.ValueIdx Cert.ReferenceIdeal Cert.ReferenceIdeal.Read Cert.LoraLinear

/-! The index maps of the reference's operations, at an index given by its coordinates. -/

/-- The first contraction reads row `(n, s)` of `x` along the contracted axis. -/
theorem lidx0_eq (n : Fin 8) (s : Fin 2048) (o k : Fin 4096) :
    lidx_main_v0 (ix3 n s o) k = ix3 n s k :=
  funext fun a => Fin.ext (by match a with | ⟨0, _⟩ => rfl | ⟨1, _⟩ => rfl | ⟨2, _⟩ => rfl)

/-- The first contraction reads row `o` of the weight along the contracted axis. -/
theorem ridx0_eq (n : Fin 8) (s : Fin 2048) (o k : Fin 4096) :
    ridx_main_v0 (ix3 n s o) k = ix2 o k :=
  funext fun a => Fin.ext (by match a with | ⟨0, _⟩ => rfl | ⟨1, _⟩ => rfl)

/-- The two broadcasts of the bias read it at the output feature. -/
theorem idx12_eq (n : Fin 8) (s : Fin 2048) (o : Fin 4096) :
    idx_main_v1 (idx_main_v2 (ix3 n s o)) = ix1 o :=
  funext fun a => Fin.ext (by match a with | ⟨0, _⟩ => rfl)

/-- The thin contraction with `l`, read at rank index `r`, takes row `(n, s)` of `x`. -/
theorem lidx45_eq (n : Fin 8) (s : Fin 2048) (o d : Fin 4096) (r : Fin 8) :
    lidx_main_v4 (lidx_main_v5 (ix3 n s o) r) d = ix3 n s d :=
  funext fun a => Fin.ext (by match a with | ⟨0, _⟩ => rfl | ⟨1, _⟩ => rfl | ⟨2, _⟩ => rfl)

/-- The thin contraction with `l`, read at rank index `r`, takes column `r` of `l`. -/
theorem ridx45_eq (n : Fin 8) (s : Fin 2048) (o d : Fin 4096) (r : Fin 8) :
    ridx_main_v4 (lidx_main_v5 (ix3 n s o) r) d = ix2 d r :=
  funext fun a => Fin.ext (by match a with | ⟨0, _⟩ => rfl | ⟨1, _⟩ => rfl)

/-- The second thin contraction reads column `o` of `a` along the rank axis. -/
theorem ridx5_eq (n : Fin 8) (s : Fin 2048) (o : Fin 4096) (r : Fin 8) :
    ridx_main_v5 (ix3 n s o) r = ix2 r o :=
  funext fun a => Fin.ext (by match a with | ⟨0, _⟩ => rfl | ⟨1, _⟩ => rfl)

theorem result_is_factored (x : FVec Ideal S8x2048x4096 .f32) (W : FVec Ideal S4096x4096 .f32)
    (b : FVec Ideal S4096 .f32) (a : FVec Ideal S8x4096 .f32) (l : FVec Ideal S4096x8 .f32) :
    val_main_v8 (F := Ideal) x W b a l = factoredOut x W b a l := by
  funext i
  obtain ⟨n, s, o, rfl⟩ : ∃ (n : Fin 8) (s : Fin 2048) (o : Fin 4096), i = ix3 n s o :=
    ⟨i 0, i 1, i 2, eq_ix3 i⟩
  rw [val_main_v8_apply, val_main_v3_apply, val_main_v7_apply, val_main_v0_apply, val_main_v2_apply,
    val_main_v1_apply, val_main_v5_apply, val_main_v6_apply]
  simp only [val_main_v4_apply, lidx0_eq, ridx0_eq, idx12_eq, lidx45_eq, ridx45_eq, ridx5_eq,
    Ideal.addf_def, Ideal.mulf_def, Ideal.ofBits_def, val_main_cst_apply]
  unfold factoredOut factoredAt scale
  rfl

end Cert.ReferenceIdeal.RefValue

end
-- ==== Proof.Law.lean ====
/-
  The fused and the factored form of the layer agree wherever every entry of the five arrays is a real number.
-/
import proofs.«154813_j36567351558281_1_alg».proof.Proof.Spec
import Mathlib.Data.EReal.Basic
import Mathlib.Algebra.BigOperators.Ring.Finset
import Mathlib.Tactic.Ring
import Mathlib.Tactic.NormNum

noncomputable section

namespace Cert.LoraLinear

open Idealize.ShloMosaic Idealize.ShloMosaic.ValueIdx

/-- The embedding of the reals into the extended reals commutes with a finite sum. -/
private theorem coe_finsum {ι : Type} (s : Finset ι) (f : ι → ℝ) :
    ((∑ i ∈ s, f i : ℝ) : EReal) = ∑ i ∈ s, (f i : EReal) := by
  classical
  refine Finset.induction_on s (by simp) ?_
  intro j s hj ih
  rw [Finset.sum_insert hj, Finset.sum_insert hj, EReal.coe_add, ih]

/-- The scale is a real number. -/
private theorem scale_real : ∃ t : ℝ, scale = (t : EReal) := by
  refine ⟨2, ?_⟩
  simp [scale, Ideal.ofBits, Ideal.ieee]
  rw [← EReal.coe_mul]
  congr 1
  norm_num

/-- The identity over the reals: distribute, and exchange the two finite sums. -/
private theorem real_law {D R : Type} [Fintype D] [Fintype R] (x W : D → ℝ) (b : ℝ) (a : R → ℝ) (l : D → R → ℝ) (t : ℝ) :
    b + ∑ d, x d * (W d + t * ∑ r, a r * l d r)
      = (∑ d, x d * W d + b) + (∑ r, (∑ d, x d * l d r) * a r) * t := by
  have h1 : ∑ d, x d * (W d + t * ∑ r, a r * l d r)
      = ∑ d, x d * W d + t * ∑ d, ∑ r, x d * l d r * a r := by
    simp only [mul_add, Finset.sum_add_distrib, Finset.mul_sum]
    congr 1
    refine Finset.sum_congr rfl fun d _ => Finset.sum_congr rfl fun r _ => ?_
    ring
  have h2 : ∑ r, (∑ d, x d * l d r) * a r = ∑ d, ∑ r, x d * l d r * a r := by
    rw [Finset.sum_comm]
    refine Finset.sum_congr rfl fun r _ => ?_
    rw [Finset.sum_mul]
  rw [h1, h2]
  ring

variable (x : FVec Ideal ⟨3, ![8, 2048, 4096]⟩ .f32) (W : FVec Ideal ⟨2, ![4096, 4096]⟩ .f32)
  (b : FVec Ideal ⟨1, ![4096]⟩ .f32) (a : FVec Ideal ⟨2, ![8, 4096]⟩ .f32) (l : FVec Ideal ⟨2, ![4096, 8]⟩ .f32)

theorem fusedOut_eq_factoredOut (hx : AllReal x) (hW : AllReal W) (hb : AllReal b) (ha : AllReal a) (hl : AllReal l) :
    fusedOut x W b a l = factoredOut x W b a l := by
  obtain ⟨t, ht⟩ := scale_real
  have hx' : ∀ i, ∃ r : ℝ, x i = (r : EReal) := hx
  have hW' : ∀ i, ∃ r : ℝ, W i = (r : EReal) := hW
  have hb' : ∀ i, ∃ r : ℝ, b i = (r : EReal) := hb
  have ha' : ∀ i, ∃ r : ℝ, a i = (r : EReal) := ha
  have hl' : ∀ i, ∃ r : ℝ, l i = (r : EReal) := hl
  choose xr hxr using hx'
  choose Wr hWr using hW'
  choose br hbr using hb'
  choose ar har using ha'
  choose lr hlr using hl'
  funext i
  simp only [fusedOut, factoredOut, fusedAt, factoredAt, fused, delta, hxr, hWr, hbr, har, hlr, ht]
  simp only [← EReal.coe_mul, ← EReal.coe_add, ← coe_finsum]
  exact congrArg _ (real_law (fun d => xr (ix3 (i 0) (i 1) d)) (fun d => Wr (ix2 (i 2) d)) (br (ix1 (i 2)))
    (fun r => ar (ix2 r (i 2))) (fun d r => lr (ix2 d r)) t)

end Cert.LoraLinear

end
-- ==== Proof.Finite.lean ====
/-
  The precondition, read: when the printed predicate holds of five arrays at the ideal instance, every entry of
  each is a real number.
-/
import proofs.«154813_j36567351558281_1_alg».proof.Proof.Spec
import proofs.«154813_j36567351558281_1_alg».proof.Pre_finite_inputs
import proofs.«154813_j36567351558281_1_alg».proof.Proof.Gen.Pre_finite_inputs
import Idealize.ShloMosaic.Lib.ReduceAll

noncomputable section

namespace Cert.LoraLinear

open Idealize.ShloMosaic Idealize.ShloMosaic.ValueIdx

/-- The word 0x7F800000 is +∞ at the ideal instance. -/
theorem ofBits_inf : Ideal.ofBits .f32 0x7F800000#32 = (⊤ : EReal) := by
  simp [Ideal.ofBits, Ideal.ieee]

/-- An extended real whose absolute value, max x (-x), compares strictly below +∞ is a real number: at either
    infinity the maximum is +∞, which is not below itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has one index. -/
instance subsingleton_scalarIdx : Subsingleton (⟨0, ![]⟩ : Shape).Idx := ⟨fun a b => funext fun d => d.elim0⟩

/-- One array: if the conjunction over all entries of |v| < +∞ (a reduction by "and" over every axis, from any
    initial word) is 1, every entry of v is a real number. -/
theorem allReal_of_all {s : Shape} {axes : List (Fin s.rank)} (v : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (init : IVec ⟨0, ![]⟩ 1) (j : (⟨0, ![]⟩ : Shape).Idx)
    (e : Host.reduce IntOp.andi
          (cmpf .olt (Host.absf v) (broadcastInDim s ![] hb (constant ⟨0, ![]⟩ .f32 0x7F800000#32))) init hr hu j
        = 1#1) :
    AllReal v := by
  intro i
  have h1 := Host.reduce_andi_all _ init hr hu j e i
  exact real_of_abs_lt_inf (v i) h1

theorem allReal_of_pre (x : FVec Ideal ⟨3, ![8, 2048, 4096]⟩ .f32) (W : FVec Ideal ⟨2, ![4096, 4096]⟩ .f32)
    (b : FVec Ideal ⟨1, ![4096]⟩ .f32) (a : FVec Ideal ⟨2, ![8, 4096]⟩ .f32) (l : FVec Ideal ⟨2, ![4096, 8]⟩ .f32)
    (h : Cert.Pre_finite_inputs.fn (F := Ideal) x W b a l = fun _ => 1#1) :
    AllReal x ∧ AllReal W ∧ AllReal b ∧ AllReal a ∧ AllReal l := by
  have h0 := congrFun h ValueIdx.ix0
  dsimp only [Cert.Pre_finite_inputs.fn, Cert.Pre_finite_inputs.fn_part1] at h0
  -- the five conjunctions, joined by "and" at the one index of the result
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨allReal_of_all x _ _ _ _ _ h1, allReal_of_all W _ _ _ _ _ h2, allReal_of_all b _ _ _ _ _ h3,
    allReal_of_all a _ _ _ _ _ h4, allReal_of_all l _ _ _ _ _ h5⟩

end Cert.LoraLinear

end
-- ==== Proof.Claims.lean ====
/-
  The certificate's conjuncts.
  * The three frames: the two kernel programs' are their generated frame certificates; the reference has no kernel,
    and its frame is its run with the result forgotten.
  * The idealization rewrote nothing, so the kernel's idealization is the kernel's own text read over the extended
    reals.
  * The value claim: the idealized kernel ends at the FUSED form of the layer of its arguments (the low-rank update
    folded into the weight, one contraction accumulated over sixteen slabs), the idealized reference at the FACTORED
    form (the base layer plus two thin contractions, scaled); the precondition makes every entry of the five
    arrays a real number, and over the reals the two forms are equal by distributivity.
-/
import proofs.«154813_j36567351558281_1_alg».proof.Defs
import proofs.«154813_j36567351558281_1_alg».proof.Proof.Gen.Kernel.Frame
import proofs.«154813_j36567351558281_1_alg».proof.Proof.KernelValue
import proofs.«154813_j36567351558281_1_alg».proof.Proof.RefValue
import proofs.«154813_j36567351558281_1_alg».proof.Proof.Law
import proofs.«154813_j36567351558281_1_alg».proof.Proof.Finite

noncomputable section

open Idealize.ShloMosaic Idealize.ShloMosaic.TcCoe Idealize.SL.Sem

namespace Cert.Proof.LoraClaims

open Cert.LoraLinear

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories agreeing on the arguments, at the same array: the kernel's fused form is the
    reference's factored form wherever the inputs are finite. -/
theorem algebraic : Cert.algebraic_KernelIdeal_ReferenceIdeal := by
  intro m ρ m' ρ' hpre hagree
  refine ⟨fun c => fusedOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_is_factored,
    (hagree c).1, (hagree c).2.1, (hagree c).2.2.1, (hagree c).2.2.2.1, (hagree c).2.2.2.2]
  obtain ⟨hx, hW, hb, ha, hl⟩ := allReal_of_pre _ _ _ _ _ (hpre c)
  exact (fusedOut_eq_factoredOut _ _ _ _ _ hx hW hb ha hl).symm

end Cert.Proof.LoraClaims

end
-- ==== Proof.lean ====
/-
  The proof of `Cert.Claim`: a linear layer with a low-rank update, computed by a Pallas kernel that folds the
  update into the weight on the host (W + 2 * a^T l^T, cast to bf16) and then runs ONE tiled matmul — row tiles of
  1024, the 4096-long contraction in sixteen slabs of 256 accumulated in the resident output block, which the first
  slab's step initialises with the bias — against the jnp reference, which adds to the base layer x W^T + b the
  factored update ((x l) a) * 2.

  Over the extended reals a change of float format is the identity, the kernel's matmul into a zero accumulator and
  the host's dot_general are plain sums, and addition is associative and commutative, so the sixteen slabs are the
  whole contraction (Proof/Accum.lean, Proof/Final.lean) and the kernel's result is the fused form
  b + x (W + 2 a^T l^T)^T (Proof/KernelValue.lean), the reference's the factored form (Proof/RefValue.lean). The two
  forms differ by distributivity, which the extended reals have only away from the infinities: the precondition,
  every input finite, is used exactly there (Proof/Finite.lean, Proof/Law.lean). The conjuncts are assembled in
  Proof/Claims.lean, behind the witnesses of the programs' stated side conditions.
-/
import proofs.«154813_j36567351558281_1_alg».proof.Defs
import proofs.«154813_j36567351558281_1_alg».proof.Proof.Claims
import proofs.«154813_j36567351558281_1_alg».proof.Proof.Gen.Kernel
import proofs.«154813_j36567351558281_1_alg».proof.Proof.Gen.KernelIdeal
import proofs.«154813_j36567351558281_1_alg».proof.Proof.Gen.ReferenceIdeal
import proofs.«154813_j36567351558281_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LoraClaims.frame_kernel, LoraClaims.frame_ideal, LoraClaims.frame_reference, LoraClaims.preserves, LoraClaims.algebraic⟩

end Cert.Proof

end
